-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x1024x8192 : Shape := ⟨3, ![8, 1024, 8192]⟩
abbrev S8192x8192 : Shape := ⟨2, ![8192, 8192]⟩
abbrev S8192 : Shape := ⟨1, ![8192]⟩
abbrev S_ : Shape := ⟨0, ![]⟩

class Facts : Prop where
  bcast_S_S8x1024x8192 : S_.BroadcastsInDim S8x1024x8192 (![] : Fin 0 → Fin S8x1024x8192.rank)
  reducesTo_S8x1024x8192_S_d0_1_2 : S8x1024x8192.ReducesTo [0, 1, 2] S_
  h_S_ : 0 < S_.numel
  bcast_S_S8192x8192 : S_.BroadcastsInDim S8192x8192 (![] : Fin 0 → Fin S8192x8192.rank)
  reducesTo_S8192x8192_S_d0_1 : S8192x8192.ReducesTo [0, 1] S_
  bcast_S_S8192 : S_.BroadcastsInDim S8192 (![] : Fin 0 → Fin S8192.rank)
  reducesTo_S8192_S_d0 : S8192.ReducesTo [0] S_

variable [Facts]

def fn {F : FTy → Type} [FloatOps F] (main_arg0 : FVec F S8x1024x8192 .f32) (main_arg1 : FVec F S8192x8192 .f32) (main_arg2 : FVec F S8192 .f32) : IVec S_ 1 :=
  let main_v0 : FVec F S8x1024x8192 .f32 := Host.absf main_arg0
  let main_cst : FVec F S_ .f32 := constant S_ .f32 0x7F800000#32
  let main_v1 : FVec F S8x1024x8192 .f32 := broadcastInDim S8x1024x8192 ![] bcast_S_S8x1024x8192 main_cst
  let main_v2 : IVec S8x1024x8192 1 := cmpf .olt main_v0 main_v1
  let main_c : IVec S_ 1 := constantI S_ 1 1#1
  let main_v3 : IVec S_ 1 := (fun x v => Host.reduce IntOp.andi x v reducesTo_S8x1024x8192_S_d0_1_2 h_S_) main_v2 main_c
  let main_v4 : FVec F S8192x8192 .f32 := Host.absf main_arg1
  let main_cst_0 : FVec F S_ .f32 := constant S_ .f32 0x7F800000#32
  let main_v5 : FVec F S8192x8192 .f32 := broadcastInDim S8192x8192 ![] bcast_S_S8192x8192 main_cst_0
  let main_v6 : IVec S8192x8192 1 := cmpf .olt main_v4 main_v5
  let main_c_1 : IVec S_ 1 := constantI S_ 1 1#1
  let main_v7 : IVec S_ 1 := (fun x v => Host.reduce IntOp.andi x v reducesTo_S8192x8192_S_d0_1 h_S_) main_v6 main_c_1
  let main_v8 : IVec S_ 1 := andi main_v3 main_v7
  let main_v9 : FVec F S8192 .f32 := Host.absf main_arg2
  let main_cst_2 : FVec F S_ .f32 := constant S_ .f32 0x7F800000#32
  let main_v10 : FVec F S8192 .f32 := broadcastInDim S8192 ![] bcast_S_S8192 main_cst_2
  let main_v11 : IVec S8192 1 := cmpf .olt main_v9 main_v10
  let main_c_3 : IVec S_ 1 := constantI S_ 1 1#1
  let main_v12 : IVec S_ 1 := (fun x v => Host.reduce IntOp.andi x v reducesTo_S8192_S_d0 h_S_) main_v11 main_c_3
  let main_v13 : IVec S_ 1 := andi main_v8 main_v12
  main_v13
-- ==== Kernel.lean ====
abbrev S8x1024x8192 : Shape := ⟨3, ![8, 1024, 8192]⟩
abbrev S8192x8192 : Shape := ⟨2, ![8192, 8192]⟩
abbrev S8192 : Shape := ⟨1, ![8192]⟩
abbrev S2048x128 : Shape := ⟨2, ![2048, 128]⟩
abbrev S128x128 : Shape := ⟨2, ![128, 128]⟩
abbrev S128 : Shape := ⟨1, ![128]⟩
abbrev S1x128 : Shape := ⟨2, ![1, 128]⟩

abbrev nBuf : Space → Nat
  | .hbm => 6
  | .vmem => 8
  | .smem => 0
  | _ => 0

abbrev bufTy : (tb : Table) → Fin (tcTables nBuf tb) → BufTy
  | .hbm, ⟨0, _⟩ => ⟨S8x1024x8192, .f32⟩
  | .hbm, ⟨1, _⟩ => ⟨S8192x8192, .f32⟩
  | .hbm, ⟨2, _⟩ => ⟨S8192, .f32⟩
  | .hbm, ⟨3, _⟩ => ⟨S8192x8192, .f32⟩
  | .hbm, ⟨4, _⟩ => ⟨S8192x8192, .f32⟩
  | .hbm, ⟨5, _⟩ => ⟨S8x1024x8192, .f32⟩
  | .local _ .vmem, ⟨0, _⟩ => ⟨S2048x128, .f32⟩
  | .local _ .vmem, ⟨1, _⟩ => ⟨S2048x128, .f32⟩
  | .local _ .vmem, ⟨2, _⟩ => ⟨S128x128, .f32⟩
  | .local _ .vmem, ⟨3, _⟩ => ⟨S128x128, .f32⟩
  | .local _ .vmem, ⟨4, _⟩ => ⟨S128, .f32⟩
  | .local _ .vmem, ⟨5, _⟩ => ⟨S128, .f32⟩
  | .local _ .vmem, ⟨6, _⟩ => ⟨S2048x128, .f32⟩
  | .local _ .vmem, ⟨7, _⟩ => ⟨S2048x128, .f32⟩
  | _, _ => ⟨S8x1024x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![64, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg0.toNat]

def cc0_transform_2 (i : grid0.Coords) : Fin 1 → Nat :=
  let arg0 : BitVec 32 := BitVec.ofNat 32 (i 0).val
  let arg1 : BitVec 32 := BitVec.ofNat 32 (i 1).val
  let c0_i32 : BitVec 32 := 0#32
  ![arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  shapeCasts_S8x1024x8192_S8192x8192 : S8x1024x8192.ShapeCasts S8192x8192
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S128_S128_0 : ∀ a, (![0] : Fin 1 → Nat) a + S128.size a ≤ S128.size a
  h_S128 : 0 < S128.numel
  shapeCasts_S128_S1x128 : S128.ShapeCasts S1x128
  broadcasts_S1x128_S2048x128 : S1x128.Broadcasts S2048x128
  shapeCasts_S8192x8192_S8x1024x8192 : S8192x8192.ShapeCasts S8x1024x8192
  dot_S2048x128_S128x128_S2048x128_1_1_0_0_n_n_wf : DotDims.WF S2048x128 S128x128 S2048x128 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x128.size a ≤ S8192x8192.size a
  hwx0_0 : ∀ i : grid0.Coords, EltTy.bits .f32 = 32 ∨ (Rect.block (s := S8192x8192) S2048x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S8192x8192.size a
  hwx0_1 : ∀ i : grid0.Coords, EltTy.bits .f32 = 32 ∨ (Rect.block (s := S8192x8192) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128.size a ≤ S8192.size a
  hwx0_2 : ∀ i : grid0.Coords, EltTy.bits .f32 = 32 ∨ (Rect.block (s := S8192) S128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x128.size a ≤ S8192x8192.size a
  hwx0_3 : ∀ i : grid0.Coords, EltTy.bits .f32 = 32 ∨ (Rect.block (s := S8192x8192) S2048x128.size (cc0_transform_3 i) (hinb0_3 i)).WholeWords (EltTy.packing .f32)

variable [Facts₀]

def dot_S2048x128_S128x128_S2048x128_1_1_0_0_n_n : DotDims S2048x128 S128x128 S2048x128 where
  lhsContracting := [1]
  rhsContracting := [1]
  lhsNonContracting := [0]
  rhsNonContracting := [0]
  lhsBatch := []
  rhsBatch := []
  wf := dot_S2048x128_S128x128_S2048x128_1_1_0_0_n_n_wf

abbrev win0_0 : Pipeline.Window sig grid0 :=
  Pipeline.Window.ofSpec (Memref.whole main_v0) S2048x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S2048x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8x1024x8192 : Shape := ⟨3, ![8, 1024, 8192]⟩
abbrev S8192x8192 : Shape := ⟨2, ![8192, 8192]⟩
abbrev S8192 : Shape := ⟨1, ![8192]⟩
abbrev S64x64 : Shape := ⟨2, ![64, 64]⟩
abbrev S_ : Shape := ⟨0, ![]⟩
abbrev S128x128 : Shape := ⟨2, ![128, 128]⟩
abbrev S64x1x64x1 : Shape := ⟨4, ![64, 1, 64, 1]⟩
abbrev S1x128x1x128 : Shape := ⟨4, ![1, 128, 1, 128]⟩
abbrev S64x128x64x128 : Shape := ⟨4, ![64, 128, 64, 128]⟩
abbrev S1x1x8192 : Shape := ⟨3, ![1, 1, 8192]⟩

abbrev nBuf : Space → Nat
  | .hbm => 34
  | .vmem => 0
  | .smem => 0
  | _ => 0

abbrev bufTy : (tb : Table) → Fin (tcTables nBuf tb) → BufTy
  | .hbm, ⟨0, _⟩ => ⟨S8x1024x8192, .f32⟩
  | .hbm, ⟨1, _⟩ => ⟨S8192x8192, .f32⟩
  | .hbm, ⟨2, _⟩ => ⟨S8192, .f32⟩
  | .hbm, ⟨3, _⟩ => ⟨S64x64, .i32⟩
  | .hbm, ⟨4, _⟩ => ⟨S64x64, .i32⟩
  | .hbm, ⟨5, _⟩ => ⟨S_, .i32⟩
  | .hbm, ⟨6, _⟩ => ⟨S64x64, .i32⟩
  | .hbm, ⟨7, _⟩ => ⟨S64x64, .i32⟩
  | .hbm, ⟨8, _⟩ => ⟨S64x64, .i1⟩
  | .hbm, ⟨9, _⟩ => ⟨S64x64, .f32⟩
  | .hbm, ⟨10, _⟩ => ⟨S_, .f32⟩
  | .hbm, ⟨11, _⟩ => ⟨S128x128, .f32⟩
  | .hbm, ⟨12, _⟩ => ⟨S64x1x64x1, .f32⟩
  | .hbm, ⟨13, _⟩ => ⟨S1x128x1x128, .f32⟩
  | .hbm, ⟨14, _⟩ => ⟨S64x128x64x128, .f32⟩
  | .hbm, ⟨15, _⟩ => ⟨S64x128x64x128, .f32⟩
  | .hbm, ⟨16, _⟩ => ⟨S64x128x64x128, .f32⟩
  | .hbm, ⟨17, _⟩ => ⟨S8192x8192, .f32⟩
  | .hbm, ⟨18, _⟩ => ⟨S8192x8192, .f32⟩
  | .hbm, ⟨19, _⟩ => ⟨S8x1024x8192, .f32⟩
  | .hbm, ⟨20, _⟩ => ⟨S1x1x8192, .f32⟩
  | .hbm, ⟨21, _⟩ => ⟨S8x1024x8192, .f32⟩
  | .hbm, ⟨22, _⟩ => ⟨S8x1024x8192, .f32⟩
  | .hbm, ⟨23, _⟩ => ⟨S_, .f32⟩
  | .hbm, ⟨24, _⟩ => ⟨S8x1024x8192, .f32⟩
  | .hbm, ⟨25, _⟩ => ⟨S8x1024x8192, .f32⟩
  | .hbm, ⟨26, _⟩ => ⟨S8x1024x8192, .f32⟩
  | .hbm, ⟨27, _⟩ => ⟨S_, .f32⟩
  | .hbm, ⟨28, _⟩ => ⟨S8x1024x8192, .f32⟩
  | .hbm, ⟨29, _⟩ => ⟨S8x1024x8192, .f32⟩
  | .hbm, ⟨30, _⟩ => ⟨S8x1024x8192, .f32⟩
  | .hbm, ⟨31, _⟩ => ⟨S8x1024x8192, .f32⟩
  | .hbm, ⟨32, _⟩ => ⟨S8x1024x8192, .f32⟩
  | .hbm, ⟨33, _⟩ => ⟨S8x1024x8192, .f32⟩
  | _, _ => ⟨S8x1024x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_0 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_1 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩

abbrev nD : Nat := 1
abbrev τ : Topo := Topo.v7x

variable {F : FTy → Type} [FloatOps F]

class Facts₀ : Prop where
  bcast_S_S64x64 : S_.BroadcastsInDim S64x64 (![] : Fin 0 → Fin S64x64.rank)
  bcast_S_S128x128 : S_.BroadcastsInDim S128x128 (![] : Fin 0 → Fin S128x128.rank)
  bcast_S64x64_S64x1x64x1_0_2 : S64x64.BroadcastsInDim S64x1x64x1 (![0, 2] : Fin 2 → Fin S64x1x64x1.rank)
  bcast_S128x128_S1x128x1x128_1_3 : S128x128.BroadcastsInDim S1x128x1x128 (![1, 3] : Fin 2 → Fin S1x128x1x128.rank)
  bcast_S64x1x64x1_S64x128x64x128_0_1_2_3 : S64x1x64x1.BroadcastsInDim S64x128x64x128 (![0, 1, 2, 3] : Fin 4 → Fin S64x128x64x128.rank)
  bcast_S1x128x1x128_S64x128x64x128_0_1_2_3 : S1x128x1x128.BroadcastsInDim S64x128x64x128 (![0, 1, 2, 3] : Fin 4 → Fin S64x128x64x128.rank)
  shapeCasts_S64x128x64x128_S8192x8192 : S64x128x64x128.ShapeCasts S8192x8192
  bcast_S8192_S1x1x8192_2 : S8192.BroadcastsInDim S1x1x8192 (![2] : Fin 1 → Fin S1x1x8192.rank)
  bcast_S1x1x8192_S8x1024x8192_0_1_2 : S1x1x8192.BroadcastsInDim S8x1024x8192 (![0, 1, 2] : Fin 3 → Fin S8x1024x8192.rank)
  bcast_S_S8x1024x8192 : S_.BroadcastsInDim S8x1024x8192 (![] : Fin 0 → Fin S8x1024x8192.rank)
  dot_S8x1024x8192_S8192x8192_S8x1024x8192_2_1_01_0_n_n_wf : DotDims.WF S8x1024x8192 S8192x8192 S8x1024x8192 [2] [1] [0, 1] [0] [] []

variable [Facts₀]

def dot_S8x1024x8192_S8192x8192_S8x1024x8192_2_1_01_0_n_n : DotDims S8x1024x8192 S8192x8192 S8x1024x8192 where
  lhsContracting := [2]
  rhsContracting := [1]
  lhsNonContracting := [0, 1]
  rhsNonContracting := [0]
  lhsBatch := []
  rhsBatch := []
  wf := dot_S8x1024x8192_S8192x8192_S8x1024x8192_2_1_01_0_n_n_wf

class Facts : Prop extends Facts₀ where

variable [Facts]
-- ==== Proof.BlockSum.lean ====
/-
  The arithmetic the two programs share, on the extended reals; no program is imported here.

  * `wire z = sin (30 z) · exp (−(c z)²)`, with `c` the single-precision word nearest one tenth: the activation both
    programs apply to the pre-activation `z`. Both constants are the same words in both programs, so they stay words
    and are never evaluated. The kernel writes the negation as `0 − y`, the reference as `−y`: one value (`wire_of_sub`).
  * `mask_entry`: an entry of `kron (eye 64) (ones 128 128)` is the comparison of two block numbers, widened to a
    float, times the word of `1`: it is `1` when the block numbers agree and `0` otherwise.
  * `masked_term`: a product with a masked weight is the product, or `0`. On the extended reals `x · 0 = 0` for EVERY
    `x`, the infinities included, so no finiteness of the inputs is used anywhere below.
  * `sum_block`: a sum over all 8192 input features whose terms vanish outside block `j` is the sum over the 128
    features of block `j` (the feature `128 j + i` paired with its offset `i`).
  * `siren`: the one function of the three argument arrays that both programs are shown to compute.
-/
import Idealize.ShloMosaic.PureOps.Ideal
import Idealize.ShloMosaic.PureOps.Ideal.Laws
import Idealize.ShloMosaic.Lib.ValueIdx
import Idealize.ShloMosaic.Lib.StableHlo.Predicate

noncomputable section

namespace Cert.Siren

open Idealize.ShloMosaic
open scoped BigOperators

/-- The activation: `sin (30 z) · exp (−(c z)²)`. -/
def wire (z : EReal) : EReal :=
  Ideal.sin (Ideal.ofBits .f32 0x41F00000#32 * z)
    * Ideal.exp (-((Ideal.ofBits .f32 0x3DCCCCCD#32 * z) * (Ideal.ofBits .f32 0x3DCCCCCD#32 * z)))

/-- The same with the negation written as a difference from the zero word. -/
theorem wire_of_sub (z : EReal) :
    Ideal.sin (Ideal.ofBits .f32 0x41F00000#32 * z)
      * Ideal.exp (Ideal.ofBits .f32 0x00000000#32 - (Ideal.ofBits .f32 0x3DCCCCCD#32 * z) * (Ideal.ofBits .f32 0x3DCCCCCD#32 * z))
    = wire z := by
  unfold wire
  rw [Ideal.ofBits_zero_f32, zero_sub]

/-- The word of `1.0` is `1`. -/
theorem one_word : Ideal.ofBits .f32 0x3F800000#32 = 1 := by
  simp [Ideal.ofBits, Ideal.ieee, -EReal.coe_mul]; norm_num

/-- An entry of the block mask: block numbers `a`, `b` below 64 compared as 32-bit words (the first through the
    `+ 0` that `eye` adds), widened, times the word of one. -/
theorem mask_entry (a b : ℕ) (ha : a < 64) (hb : b < 64) :
    FloatOps.mulf (F := Ideal) (φ := .f32)
      (FloatOps.uitofp .f32 (IntOp.cmpi .eq (IntOp.addi (BitVec.ofNat 32 a) 0#32) (BitVec.ofNat 32 b)))
      (FloatOps.ofBits .f32 0x3F800000#32) = if a = b then 1 else 0 := by
  have hadd : IntOp.addi (BitVec.ofNat 32 a) 0#32 = BitVec.ofNat 32 a := by
    unfold IntOp.addi; exact BitVec.add_zero _
  rw [hadd]
  show (((IntOp.cmpi .eq (BitVec.ofNat 32 a) (BitVec.ofNat 32 b)).toNat : ℝ) : EReal) * Ideal.ofBits .f32 0x3F800000#32 = _
  rw [one_word, mul_one]
  by_cases h : a = b
  · subst h
    rw [if_pos rfl, StableHlo.Predicate.cmpi_eq_iff.mpr rfl]
    simp
  · rw [if_neg h]
    have hc : IntOp.cmpi .eq (BitVec.ofNat 32 a) (BitVec.ofNat 32 b) = 0#1 :=
      ValueIdx.eq_zero_of_ne_one (fun hc => h (by
        have h1 := congrArg BitVec.toNat (StableHlo.Predicate.cmpi_eq_iff.mp hc)
        simp only [BitVec.toNat_ofNat] at h1
        omega))
    rw [hc]
    simp

/-- A product with a masked weight. -/
theorem masked_term (x w : EReal) (p : Prop) [Decidable p] :
    x * (w * (if p then (1 : EReal) else 0)) = if p then x * w else 0 := by
  split_ifs <;> simp

/-- Feature `i` of the block that holds feature `o`. -/
def inBlock (o : Fin 8192) (i : Fin 128) : Fin 8192 :=
  ⟨128 * (o.val / 128) + i.val, by have := o.isLt; have := i.isLt; omega⟩

/-- A sum over all input features that vanishes outside block `j` is the sum over block `j`. -/
theorem sum_block (f : Fin 8192 → EReal) (j : ℕ) (hj : j < 64) :
    ∑ k : Fin 8192, (if j = k.val / 128 then f k else 0)
      = ∑ i : Fin 128, f ⟨128 * j + i.val, by have := i.isLt; omega⟩ := by
  rw [← Finset.sum_filter]
  symm
  refine Finset.sum_nbij' (fun i : Fin 128 => (⟨128 * j + i.val, by have := i.isLt; omega⟩ : Fin 8192))
    (fun k : Fin 8192 => (⟨k.val % 128, Nat.mod_lt _ (by norm_num)⟩ : Fin 128)) ?_ ?_ ?_ ?_ ?_
  · intro i _
    simp only [Finset.mem_filter, Finset.mem_univ, true_and]
    have := i.isLt; omega
  · intro k _; exact Finset.mem_univ _
  · intro i _
    apply Fin.ext
    show (128 * j + i.val) % 128 = i.val
    have := i.isLt; omega
  · intro k hk
    simp only [Finset.mem_filter, Finset.mem_univ, true_and] at hk
    apply Fin.ext
    show 128 * j + k.val % 128 = k.val
    omega
  · intro i _; rfl

/-- The same with the block named by one of its features. -/
theorem sum_inBlock (f : Fin 8192 → EReal) (o : Fin 8192) :
    ∑ k : Fin 8192, (if o.val / 128 = k.val / 128 then f k else 0) = ∑ i : Fin 128, f (inBlock o i) :=
  sum_block f (o.val / 128) (by have := o.isLt; omega)

/-! ## What both programs compute -/

/-- The pre-activation of output feature `o` of token `(b, n)`: the inner product of the token's 128 input features
    in `o`'s own block with row `o` of the weight over that block, plus the bias of `o`. -/
def preact (x : (⟨3, ![8, 1024, 8192]⟩ : Shape).Idx → EReal) (w : (⟨2, ![8192, 8192]⟩ : Shape).Idx → EReal)
    (β : (⟨1, ![8192]⟩ : Shape).Idx → EReal) (b : Fin 8) (n : Fin 1024) (o : Fin 8192) : EReal :=
  (∑ i : Fin 128, x (ValueIdx.ix3 b n (inBlock o i)) * w (ValueIdx.ix2 o (inBlock o i))) + β (ValueIdx.ix1 o)

/-- The result array: the activation of the pre-activation, element by element. -/
def siren (x : (⟨3, ![8, 1024, 8192]⟩ : Shape).Idx → EReal) (w : (⟨2, ![8192, 8192]⟩ : Shape).Idx → EReal)
    (β : (⟨1, ![8192]⟩ : Shape).Idx → EReal) : (⟨3, ![8, 1024, 8192]⟩ : Shape).Idx → EReal := fun i =>
  wire (preact x w β ⟨(i 0).val, (i 0).isLt⟩ ⟨(i 1).val, (i 1).isLt⟩ ⟨(i 2).val, (i 2).isLt⟩)

end Cert.Siren

end
-- ==== Proof.RefValue.lean ====
/-
  The reference computes `siren` of its arguments.

  The reference multiplies the weight by the 0/1 block mask `kron (eye 64) (ones 128 128)`, contracts the token's
  8192 input features against the masked row, adds the bias and applies the activation. Entry `(o, k)` of the mask is
  `1` exactly when `o` and `k` lie in the same block of 128 (`mask_at`), so every term of the contraction outside `o`'s
  block is a product with `0` and the sum is the sum over `o`'s block (`preact_at`). The activation is the same
  expression on both sides, the host's sine, exponential and negation being the kernel's on the extended reals.
-/
import proofs.«161433_j61572651155930_1_alg».proof.Proof.Gen.ReferenceIdeal.Read
import proofs.«161433_j61572651155930_1_alg».proof.Proof.BlockSum

noncomputable section

namespace Cert.ReferenceIdeal.RefValue

open Cert.ReferenceIdeal Cert.ReferenceIdeal.Gen Cert.ReferenceIdeal.Read Idealize.ShloMosaic Idealize.ShloMosaic.ValueIdx Cert.Siren
open scoped BigOperators

/-- An entry of the mask as the reference builds it: the identity of order 64 spread over the two block axes of a
    64×128×64×128 array, times ones, flattened to 8192×8192. -/
theorem mask_at (r : S8192x8192.Idx) :
    val_main_v7 (F := Ideal) r = if (r 0).val / 128 = (r 1).val / 128 then 1 else 0 := by
  rw [val_main_v7_apply, val_main_call0_v4_apply, val_main_call0_v2_apply, val_main_call0_v3_apply,
    val_main_call0_v0_apply, val_main_call0_v1_apply, val_main_v5_apply, val_main_v6_apply, val_main_v4_apply,
    val_main_v3_apply, val_main_v0_apply, val_main_v1_apply, val_main_v2_apply, val_main_c_apply, val_main_cst_apply]
  have h0 : (r 0).val < 8192 := (r 0).isLt
  have h1 : (r 1).val < 8192 := (r 1).isLt
  have e1 : ((r 0).val * 8192 + (r 1).val) / 1048576 = (r 0).val / 128 := by omega
  have e2 : ((r 0).val * 8192 + (r 1).val) / 128 % 64 = (r 1).val / 128 := by
    have h : ((r 0).val * 8192 + (r 1).val) / 128 = 64 * (r 0).val + (r 1).val / 128 := by omega
    rw [h]; omega
  refine (mask_entry (((r 0).val * 8192 + (r 1).val) / 1048576) (((r 0).val * 8192 + (r 1).val) / 128 % 64)
    (by omega) (by omega)).trans ?_
  rw [e1, e2]

/-- The pre-activation at an index. -/
theorem preact_at (x0 : (⟨S8x1024x8192, .f32⟩ : BufTy).Contents (Elt Ideal)) (x1 : (⟨S8192x8192, .f32⟩ : BufTy).Contents (Elt Ideal))
    (x2 : (⟨S8192, .f32⟩ : BufTy).Contents (Elt Ideal)) (i : S8x1024x8192.Idx) :
    val_main_v12 (F := Ideal) x0 x1 x2 i
      = preact x0 x1 x2 ⟨(i 0).val, (i 0).isLt⟩ ⟨(i 1).val, (i 1).isLt⟩ ⟨(i 2).val, (i 2).isLt⟩ := by
  rw [val_main_v12_apply, val_main_v9_apply, val_main_v11_apply, val_main_v10_apply]
  show (∑ k : Fin 8192, x0 (lidx_main_v9 i k) * val_main_v8 (F := Ideal) x1 (ridx_main_v9 i k)) + x2 (idx_main_v10 (idx_main_v11 i)) = _
  unfold preact
  have hterm : ∀ k : Fin 8192, x0 (lidx_main_v9 i k) * val_main_v8 (F := Ideal) x1 (ridx_main_v9 i k)
      = if (i 2).val / 128 = k.val / 128 then x0 (lidx_main_v9 i k) * x1 (ridx_main_v9 i k) else 0 := fun k => by
    rw [val_main_v8_apply, mask_at]
    exact masked_term _ _ _
  rw [Finset.sum_congr rfl (fun k _ => hterm k),
    sum_inBlock (fun k => x0 (lidx_main_v9 i k) * x1 (ridx_main_v9 i k)) ⟨(i 2).val, (i 2).isLt⟩]
  have hl : ∀ j : Fin 128, lidx_main_v9 i (inBlock ⟨(i 2).val, (i 2).isLt⟩ j)
      = ix3 (⟨(i 0).val, (i 0).isLt⟩ : Fin 8) (⟨(i 1).val, (i 1).isLt⟩ : Fin 1024) (inBlock ⟨(i 2).val, (i 2).isLt⟩ j) := fun j =>
    funext fun a => Fin.ext (by match a with | ⟨0, _⟩ => rfl | ⟨1, _⟩ => rfl | ⟨2, _⟩ => rfl)
  have hr : ∀ j : Fin 128, ridx_main_v9 i (inBlock ⟨(i 2).val, (i 2).isLt⟩ j)
      = ix2 (⟨(i 2).val, (i 2).isLt⟩ : Fin 8192) (inBlock ⟨(i 2).val, (i 2).isLt⟩ j) := fun j =>
    funext fun a => Fin.ext (by match a with | ⟨0, _⟩ => rfl | ⟨1, _⟩ => rfl)
  have hb : idx_main_v10 (idx_main_v11 i) = ix1 (⟨(i 2).val, (i 2).isLt⟩ : Fin 8192) :=
    funext fun a => Fin.ext (by match a with | ⟨0, _⟩ => rfl)
  rw [hb]
  congr 1
  exact Finset.sum_congr rfl fun j _ => by rw [hl j, hr j]

/-- THE REFERENCE'S RESULT is `siren` of its arguments. -/
theorem result_eq (x0 : (⟨S8x1024x8192, .f32⟩ : BufTy).Contents (Elt Ideal)) (x1 : (⟨S8192x8192, .f32⟩ : BufTy).Contents (Elt Ideal))
    (x2 : (⟨S8192, .f32⟩ : BufTy).Contents (Elt Ideal)) :
    val_main_v21 (F := Ideal) x0 x1 x2 = siren x0 x1 x2 := by
  funext i
  rw [val_main_v21_apply, val_main_v15_apply, val_main_v20_apply, val_main_v19_apply, val_main_v18_apply,
    val_main_v17_apply, val_main_v14_apply, val_main_v13_apply, val_main_v16_apply, val_main_cst_0_apply,
    val_main_cst_1_apply, preact_at]
  rfl

end Cert.ReferenceIdeal.RefValue

end
-- ==== Proof.KernelBody.lean ====
/-
  The kernel body's arithmetic at one element of its output block, on the extended reals.

  The body loads a 2048×128 block `x0` of tokens × input features, the 128×128 diagonal weight block `x1`
  (output feature × input feature) and the 128 biases `x2` of that block, and stores
  `wire (x0 · x1ᵀ + x2)`: element `(p, q)` is the activation of `∑ₖ x0[p, k] · x1[q, k] + x2[q]`. The narrowing of both
  operands to bf16 before the product is the identity on the extended reals, the product unit's accumulator is the zero
  splat, and the bias reaches every row through a unit axis.
-/
import proofs.«161433_j61572651155930_1_alg».proof.Proof.Gen.KernelIdeal.Skeleton
import proofs.«161433_j61572651155930_1_alg».proof.Proof.BlockSum
import Idealize.ShloMosaic.Lib.Pipeline.Value
import Idealize.ShloMosaic.Lib.ValueIdx
import Idealize.ShloMosaic.PureOps.Ideal.Laws

noncomputable section

namespace Cert.KernelIdeal.Body

open Cert.KernelIdeal Cert.KernelIdeal.Gen Idealize.ShloMosaic Idealize.ShloMosaic.ValueIdx Cert.Siren
open scoped BigOperators

/-! ## The contraction's operand indices: the left operand is read at (output row, k), the right at (output column, k) -/

theorem lhs_row (i : S2048x128.Idx) (q : dot_S2048x128_S128x128_S2048x128_1_1_0_0_n_n.contr.Idx) :
    (dot_S2048x128_S128x128_S2048x128_1_1_0_0_n_n.lhsIdx i q 0).val = (i 0).val := by
  unfold DotDims.lhsIdx
  rw [dif_neg (show ¬(0 : Fin S2048x128.rank) ∈ dot_S2048x128_S128x128_S2048x128_1_1_0_0_n_n.lhsBatch by decide), dif_pos (show (0 : Fin S2048x128.rank) ∈ dot_S2048x128_S128x128_S2048x128_1_1_0_0_n_n.lhsNonContracting by decide)]
  rfl
theorem lhs_col (i : S2048x128.Idx) (q : dot_S2048x128_S128x128_S2048x128_1_1_0_0_n_n.contr.Idx) :
    (dot_S2048x128_S128x128_S2048x128_1_1_0_0_n_n.lhsIdx i q 1).val = (q ⟨0, by decide⟩).val :=
  dot_S2048x128_S128x128_S2048x128_1_1_0_0_n_n.lhsIdx_val_of_single rfl i q
theorem rhs_row (i : S2048x128.Idx) (q : dot_S2048x128_S128x128_S2048x128_1_1_0_0_n_n.contr.Idx) :
    (dot_S2048x128_S128x128_S2048x128_1_1_0_0_n_n.rhsIdx i q 0).val = (i 1).val := by
  unfold DotDims.rhsIdx
  rw [dif_neg (show ¬(0 : Fin S128x128.rank) ∈ dot_S2048x128_S128x128_S2048x128_1_1_0_0_n_n.rhsBatch by decide), dif_pos (show (0 : Fin S128x128.rank) ∈ dot_S2048x128_S128x128_S2048x128_1_1_0_0_n_n.rhsNonContracting by decide)]
  rfl
theorem rhs_col (i : S2048x128.Idx) (q : dot_S2048x128_S128x128_S2048x128_1_1_0_0_n_n.contr.Idx) :
    (dot_S2048x128_S128x128_S2048x128_1_1_0_0_n_n.rhsIdx i q 1).val = (q ⟨0, by decide⟩).val :=
  dot_S2048x128_S128x128_S2048x128_1_1_0_0_n_n.rhsIdx_val_of_single rfl i q

/-- The product into the zero accumulator, at element `(p, q)`: `∑ₖ a[p, k] · b[q, k]`. -/
theorem matmul_at (a : FVec Ideal S2048x128 .bf16) (b : FVec Ideal S128x128 .bf16) (p : Fin 2048) (q : Fin 128) :
    matmul dot_S2048x128_S128x128_S2048x128_1_1_0_0_n_n none a b (constant S2048x128 .f32 0x00000000#32) (ix2 p q)
      = ∑ k : Fin 128, a (ix2 p k) * b (ix2 q k) := by
  show FloatOps.matmul dot_S2048x128_S128x128_S2048x128_1_1_0_0_n_n none a b (constant S2048x128 .f32 0x00000000#32) (ix2 p q) = _
  rw [Ideal.matmul_constant_zero_apply, ← Equiv.sum_comp (contrEquiv1 dot_S2048x128_S128x128_S2048x128_1_1_0_0_n_n 128 rfl rfl).symm]
  refine Finset.sum_congr rfl fun k _ => ?_
  have hk := contrEquiv1_symm_val dot_S2048x128_S128x128_S2048x128_1_1_0_0_n_n 128 rfl rfl k
  have el : dot_S2048x128_S128x128_S2048x128_1_1_0_0_n_n.lhsIdx (ix2 p q) ((contrEquiv1 dot_S2048x128_S128x128_S2048x128_1_1_0_0_n_n 128 rfl rfl).symm k) = ix2 p k := funext fun a => Fin.ext (by
    match a with
    | ⟨0, _⟩ => exact lhs_row _ _
    | ⟨1, _⟩ => exact (lhs_col _ _).trans hk)
  have er : dot_S2048x128_S128x128_S2048x128_1_1_0_0_n_n.rhsIdx (ix2 p q) ((contrEquiv1 dot_S2048x128_S128x128_S2048x128_1_1_0_0_n_n 128 rfl rfl).symm k) = ix2 q k := funext fun a => Fin.ext (by
    match a with
    | ⟨0, _⟩ => exact rhs_row _ _
    | ⟨1, _⟩ => exact (rhs_col _ _).trans hk)
  rw [el, er]

/-- The bias row, given a unit axis and spread over the 2048 rows, at element `(p, q)`: `v[q]`. -/
theorem bias_at (v : FVec Ideal S128 .f32) (h : S128.ShapeCasts S1x128) (h' : S1x128.Broadcasts S2048x128) (p : Fin 2048) (q : Fin 128) :
    broadcastTo S2048x128 (shapeCast S1x128 v h) h' (ix2 p q) = v (ix1 q) := by
  rw [broadcastTo_apply (shapeCast S1x128 v h) h' (ix2 p q) (ix2 (0 : Fin 1) q) (fun a => match a with
    | ⟨0, _⟩ => by show 0 = if (1 : Nat) = 1 then 0 else p.val; rw [if_pos rfl]
    | ⟨1, _⟩ => by show q.val = if (128 : Nat) = 1 then 0 else q.val; rw [if_neg (by decide)])]
  exact shapeCast_apply v h (ix2 (0 : Fin 1) q) (ix1 q) (by
    rw [Shape.rowMajor_val_one, Shape.rowMajor_val_two]
    show q.val = 0 * 128 + q.val
    omega)

/-- THE BODY'S STORE at element `(p, q)` of the block. -/
theorem payload_at (x0 : Vec Ideal S2048x128 .f32) (x1 : Vec Ideal S128x128 .f32) (x2 : Vec Ideal S128 .f32) (p : Fin 2048) (q : Fin 128) :
    k0_pay1 (F := Ideal) x0 x1 x2 (ix2 p q) = wire ((∑ k : Fin 128, x0 (ix2 p k) * x1 (ix2 q k)) + x2 (ix1 q)) := by
  have hz : (matmul (F := Ideal) dot_S2048x128_S128x128_S2048x128_1_1_0_0_n_n none (truncf (F := Ideal) .bf16 (shapeCast S2048x128 x0 Facts₀.shapeCasts_S2048x128_S2048x128) Facts₀.bitsLt_bf16_f32)
        (truncf (F := Ideal) .bf16 x1 Facts₀.bitsLt_bf16_f32) (constant (F := Ideal) S2048x128 .f32 0x00000000#32) (ix2 p q) : EReal)
      + (broadcastTo S2048x128 (shapeCast S1x128 x2 Facts₀.shapeCasts_S128_S1x128) Facts₀.broadcasts_S1x128_S2048x128 (ix2 p q) : EReal)
      = (∑ k : Fin 128, x0 (ix2 p k) * x1 (ix2 q k)) + x2 (ix1 q) := by
    rw [matmul_at, bias_at]
    simp only [truncf_apply, shapeCast_self]
  rw [← hz, ← wire_of_sub]
  rfl

end Cert.KernelIdeal.Body

end
-- ==== Proof.KernelValue.lean ====
/-
  The idealized kernel's result array is `siren` of its arguments.

  The grid has 64 × 4 points `(blk, i)`. At a point the body reads rows `2048 i … 2048 i + 2047`, columns
  `128 blk … 128 blk + 127` of the token matrix (the input reshaped to 8192 × 8192), the diagonal block `(blk, blk)` of
  the weight and block `blk` of the bias, and writes the same rows and columns of the output matrix. So element
  `(r, c)` of the output matrix is the activation of `∑ₖ X[r, 128 ⌊c/128⌋ + k] · W[c, 128 ⌊c/128⌋ + k] + β[c]` (`tile`):
  what each point writes back is its block of that one function (`flushed_eq`), the 256 blocks cover the matrix
  (`cover`), so the matrix ends holding it (`final`). The reshapes before and after the region only renumber:
  token `(b, n)` is row `1024 b + n` (`tile_reshape`, `tail_eq`).
-/
import proofs.«161433_j61572651155930_1_alg».proof.Proof.Gen.KernelIdeal.Frame
import proofs.«161433_j61572651155930_1_alg».proof.Proof.KernelBody
import proofs.«161433_j61572651155930_1_alg».proof.Proof.BlockSum
import Idealize.ShloMosaic.Lib.Pipeline.Value
import Idealize.ShloMosaic.Lib.ValueIdx
import Idealize.ShloMosaic.Lib.StableHlo.Run

set_option maxRecDepth 16384

noncomputable section

namespace Cert.KernelIdeal.KValue

open Cert.KernelIdeal Cert.KernelIdeal.Gen Cert.KernelIdeal.Body Idealize.ShloMosaic Idealize.ShloMosaic.TcCoe
open Idealize.ShloMosaic.ValueIdx Idealize.ShloMosaic.StableHlo Idealize.SL.Sem Cert.Siren
open Idealize.ShloMosaic.Pipeline (Dat Cfg Window)
open scoped BigOperators

/-! ## The output matrix as one function of the token matrix, the weight and the bias -/

/-- Element `(r, c)` of the output matrix. -/
def tile (X : S8192x8192.Idx → EReal) (w : S8192x8192.Idx → EReal) (β : S8192.Idx → EReal) : S8192x8192.Idx → EReal := fun j =>
  wire ((∑ k : Fin 128, X (ix2 (⟨(j 0).val, (j 0).isLt⟩ : Fin 8192) (inBlock ⟨(j 1).val, (j 1).isLt⟩ k))
      * w (ix2 (⟨(j 1).val, (j 1).isLt⟩ : Fin 8192) (inBlock ⟨(j 1).val, (j 1).isLt⟩ k)))
    + β (ix1 (⟨(j 1).val, (j 1).isLt⟩ : Fin 8192)))

/-- Token `(b, n)` is row `1024 b + n` of the token matrix: the output matrix read there is `siren`. -/
theorem tile_reshape (x : S8x1024x8192.Idx → EReal) (h : S8x1024x8192.ShapeCasts S8192x8192)
    (w : S8192x8192.Idx → EReal) (β : S8192.Idx → EReal) (b : Fin 8) (n : Fin 1024) (o : Fin 8192) :
    tile (shapeCast S8192x8192 x h) w β (ix2 (⟨b.val * 1024 + n.val, by have := b.isLt; have := n.isLt; omega⟩ : Fin 8192) o)
      = wire (preact x w β b n o) := by
  unfold tile preact
  show wire ((∑ k : Fin 128, shapeCast S8192x8192 x h (ix2 (⟨b.val * 1024 + n.val, _⟩ : Fin 8192) (inBlock o k))
      * w (ix2 o (inBlock o k))) + β (ix1 o)) = _
  congr 2
  refine Finset.sum_congr rfl fun k _ => ?_
  congr 1
  exact shapeCast_apply x h _ (ix3 b n (inBlock o k)) (by
    rw [Shape.rowMajor_val_three, Shape.rowMajor_val_two]
    rfl)

variable (m : (ℓ : Loc nD τ sig) → Buf (Elt Ideal) ℓ) (ρ : Dev nD → PrngReg)

/-- The arrays the region finds, at their literal types. -/
abbrev tokens (c : Dev nD) : Vec Ideal S8192x8192 .f32 := V m c main_v0
abbrev weight (c : Dev nD) : Vec Ideal S8192x8192 .f32 := V m c main_arg1
abbrev bias (c : Dev nD) : Vec Ideal S8192 .f32 := V m c main_arg2

theorem hz2 : (![0, 0] : Fin 2 → Nat) = fun _ => 0 := funext fun a => by fin_cases a <;> rfl
theorem hz1 : (![0] : Fin 1 → Nat) = fun _ => 0 := funext fun a => by fin_cases a; rfl

/-- The printed index maps, decided over the grid: the token window moves with the output window; the weight window sits on
    the diagonal at the output's column block, the bias window at the same block; the output's block indices range
    over 4 × 64. -/
theorem idx_facts : ∀ t : Fin cfg0.N, win0_0.index t (0 : Fin 2) = win0_3.index t (0 : Fin 2)
    ∧ win0_0.index t (1 : Fin 2) = win0_3.index t (1 : Fin 2)
    ∧ win0_1.index t (0 : Fin 2) = win0_3.index t (1 : Fin 2)
    ∧ win0_1.index t (1 : Fin 2) = win0_3.index t (1 : Fin 2)
    ∧ win0_2.index t (0 : Fin 1) = win0_3.index t (1 : Fin 2)
    ∧ win0_3.index t (0 : Fin 2) ≤ 3 ∧ win0_3.index t (1 : Fin 2) ≤ 63 :=
  (by decide +kernel : ∀ t : Fin grid0.N, _)

/-- Every block of the output matrix is some point's. -/
theorem idx_onto : ∀ (q0 : Fin 4) (q1 : Fin 64), ∃ t : Fin cfg0.N, win0_3.index t = ![q0.val, q1.val] :=
  (by decide +kernel : ∀ (q0 : Fin 4) (q1 : Fin 64), ∃ t : Fin grid0.N, win0_3.index t = ![q0.val, q1.val])

/-- WHAT POINT `t` WRITES BACK is block `t` of `tile` of the arrays as the region finds them. -/
theorem flushed_eq (c : Dev nD) (t : Fin cfg0.N) :
    (dats m 0 c).flushed 3 t = ((cfg0.win 3).blk t).view.read (Elt Ideal) (tile (tokens m c) (weight m c) (bias m c)) := by
  show (cfg0.win 3).cut (grid0.coords t) ((dats m 0 c).after 3 t) = _
  rw [after0_3]
  unfold out0_3
  rw [View.canon_unit_zero hz2]
  simp only [View.ld_unit_zero (S := S2048x128) hz2, View.ld_unit_zero (S := S128x128) hz2, View.ld_unit_zero (S := S128) hz1]
  obtain ⟨e0, e1, e2, e3, e4, e5, e6⟩ := idx_facts t
  funext j
  obtain ⟨p, q, rfl⟩ : ∃ (p : Fin 2048) (q : Fin 128), j = ix2 p q := ⟨j 0, j 1, eq_ix2 j⟩
  refine (payload_at (iblk m c 0 t) (iblk m c 1 t) (iblk m c 2 t) p q).trans ?_
  have hp : p.val < 2048 := p.isLt
  have hq : q.val < 128 := q.isLt
  show _ = tile (tokens m c) (weight m c) (bias m c) (((cfg0.win 3).blk t).view.emb (ix2 p q))
  unfold tile
  congr 2
  · refine Finset.sum_congr rfl fun k _ => ?_
    have hk : k.val < 128 := k.isLt
    congr 1
    · show V m c main_v0 (((cfg0.win 0).blk t).view.emb (ix2 p k)) = V m c main_v0 _
      refine congrArg _ (funext fun a => Fin.ext ?_)
      match a with
      | ⟨0, _⟩ => show win0_0.index t (0 : Fin 2) * 2048 + 1 * p.val = win0_3.index t (0 : Fin 2) * 2048 + 1 * p.val; omega
      | ⟨1, _⟩ => show win0_0.index t (1 : Fin 2) * 128 + 1 * k.val = 128 * ((win0_3.index t (1 : Fin 2) * 128 + 1 * q.val) / 128) + k.val; omega
    · show V m c main_arg1 (((cfg0.win 1).blk t).view.emb (ix2 q k)) = V m c main_arg1 _
      refine congrArg _ (funext fun a => Fin.ext ?_)
      match a with
      | ⟨0, _⟩ => show win0_1.index t (0 : Fin 2) * 128 + 1 * q.val = win0_3.index t (1 : Fin 2) * 128 + 1 * q.val; omega
      | ⟨1, _⟩ => show win0_1.index t (1 : Fin 2) * 128 + 1 * k.val = 128 * ((win0_3.index t (1 : Fin 2) * 128 + 1 * q.val) / 128) + k.val; omega
  · show V m c main_arg2 (((cfg0.win 2).blk t).view.emb (ix1 q)) = V m c main_arg2 _
    refine congrArg _ (funext fun a => Fin.ext ?_)
    match a with
    | ⟨0, _⟩ => show win0_2.index t (0 : Fin 1) * 128 + 1 * q.val = win0_3.index t (1 : Fin 2) * 128 + 1 * q.val; omega

/-- An index of the output matrix is in point `t`'s block iff each coordinate is in the block's range on its axis. -/
theorem mem_blk (t : Fin cfg0.N) (i : S8192x8192.Idx) :
    i ∈ ((cfg0.win 3).blk t).view.set ↔ ∀ a : Fin 2, win0_3.index t a * S2048x128.size a ≤ (i a).val ∧ (i a).val < win0_3.index t a * S2048x128.size a + S2048x128.size a := by
  show i ∈ ((View.whole main_v1).slice (win0_3.rect t)).set ↔ _
  rw [View.set_slice_whole, Rect.mem_set_unit]
  exact Iff.rfl

/-- The blocks cover the output matrix: element `(r, c)` is in the block of rows `⌊r/2048⌋`, columns `⌊c/128⌋`. -/
theorem cover (i : S8192x8192.Idx) :
    ∃ t : Fin cfg0.N, (cfg0.win 3).flush t = true ∧ i ∈ ((cfg0.win 3).blk t).view.set := by
  have hi0 : (i 0).val < 8192 := (i 0).isLt
  have hi1 : (i 1).val < 8192 := (i 1).isLt
  obtain ⟨t, ht⟩ := idx_onto ⟨(i 0).val / 2048, by omega⟩ ⟨(i 1).val / 128, by omega⟩
  have q0 : win0_3.index t (0 : Fin 2) = (i 0).val / 2048 := congrFun ht 0
  have q1 : win0_3.index t (1 : Fin 2) = (i 1).val / 128 := congrFun ht 1
  refine ⟨t, flush0_3 t, ?_⟩
  rw [mem_blk]
  intro a
  match a with
  | ⟨0, _⟩ => show win0_3.index t (0 : Fin 2) * 2048 ≤ (i 0).val ∧ (i 0).val < win0_3.index t (0 : Fin 2) * 2048 + 2048; omega
  | ⟨1, _⟩ => show win0_3.index t (1 : Fin 2) * 128 ≤ (i 1).val ∧ (i 1).val < win0_3.index t (1 : Fin 2) * 128 + 128; omega

/-- THE OUTPUT MATRIX after the region. -/
theorem final (c : Dev nD) : (dats m 0 c).arrAt 3 cfg0.N = tile (tokens m c) (weight m c) (bias m c) :=
  (dats m 0 c).arrAt_eq_of_cover 3 _ (fun t _ => flushed_eq m c t) cover

/-- The token matrix the region finds is the first argument reshaped. -/
theorem tokens_eq (c : Dev nD) :
    tokens m c = shapeCast S8192x8192 (m ((c : Thread nD τ).loc main_arg0)) Facts₀.shapeCasts_S8x1024x8192_S8192x8192 := by
  show StableHlo.after hostOps0 (fun b => m (c, b)) (Proc.devRef .tc main_v0) = _
  after_results
  rfl

/-- THE RESULT: the output matrix reshaped back to tokens is `siren` of the three arguments. -/
theorem tail_eq (c : Dev nD) :
    Pipeline.afterTail₀ cfgs (dats m) 0 (V0 m) [hostOps1] c main_v2
      = siren (m ((c : Thread nD τ).loc main_arg0)) (m ((c : Thread nD τ).loc main_arg1)) (m ((c : Thread nD τ).loc main_arg2)) := by
  unfold Pipeline.afterTail₀
  show StableHlo.after hostOps1 _ (Proc.devRef .tc main_v2) = _
  after_results
  refine funext fun (i : S8x1024x8192.Idx) => ?_
  have hi0 : (i 0).val < 8 := (i 0).isLt
  have hi1 : (i 1).val < 1024 := (i 1).isLt
  show shapeCast S8x1024x8192 (Pipeline.withArrays spec0 c (V0 m c) (fun w => (dats m 0 c).arrAt w cfg0.N)
      (Proc.devRef .tc (Pipeline.arrRef spec0 3))) Facts₀.shapeCasts_S8192x8192_S8x1024x8192 i = _
  rw [Pipeline.withArrays_arr spec0 launch0.win.arr_inj c _ _ 3, final, tokens_eq]
  have hw : weight m c = m ((c : Thread nD τ).loc main_arg1) := V_main_arg1 m c
  have hb : bias m c = m ((c : Thread nD τ).loc main_arg2) := V_main_arg2 m c
  rw [hw, hb]
  refine (shapeCast_apply _ _ i (ix2 (⟨(i 0).val * 1024 + (i 1).val, by omega⟩ : Fin 8192) (⟨(i 2).val, (i 2).isLt⟩ : Fin 8192)) ?_).trans ?_
  · rw [Shape.rowMajor_val_two, Shape.rowMajor_val_three]
    rfl
  · exact tile_reshape _ _ _ _ ⟨(i 0).val, (i 0).isLt⟩ ⟨(i 1).val, (i 1).isLt⟩ ⟨(i 2).val, (i 2).isLt⟩

/-! ## The run, read -/

/-- Every weakly fair execution of the idealized kernel's program ends with the result array at `siren` of the arguments
    and the arguments as launched: the generated frame run, its post read at the result (the reshape after the region
    applied to the output matrix) and at the three arguments. -/
theorem run : θ_run defs (onTc (τ := τ) (main (F := Ideal))) ⟨m, fun _ => 0, ρ⟩ fun r => ∀ c : Dev nD,
      r.2.mem ((c.tc : Thread nD τ).loc main_v2)
        = siren (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c =>
      ⟨((h c).2 main_v2 (Pipeline.mem_restRefs_of main_v2 (by decide) (by decide))).trans (tail_eq m c),
       ((h c).2 main_arg0 (Pipeline.mem_restRefs_of main_arg0 (by decide) (by decide))).trans (W_main_arg0 m (dats m) c),
       ((h c).1 1).trans (((dats m 0 c).arrAt_in 1 rfl _).trans ((A_eq m c 1).trans (V_main_arg1 m c))),
       ((h c).1 2).trans (((dats m 0 c).arrAt_in 2 rfl _).trans ((A_eq m c 2).trans (V_main_arg2 m c)))⟩)
    (run_main m ρ)

end Cert.KernelIdeal.KValue

end
-- ==== Proof.lean ====
/-
  The certificate of the block-diagonal SIREN layer: `Cert.Claim`.

  Both programs compute, for token `(b, n)` and output feature `o`,
      `wire (∑_{k < 128} x[b, n, 128 ⌊o/128⌋ + k] · w[o, 128 ⌊o/128⌋ + k] + β[o])`,   `wire z = sin (30 z) · exp (−(c z)²)`
  (`Cert.Siren.siren`). The reference contracts all 8192 input features against the weight times a 0/1 block mask; a
  masked term is a product with `0`, which is `0` for every extended real, so only `o`'s own block of 128 features is
  left (Proof/RefValue.lean). The kernel never touches an off-diagonal block: grid point `(blk, i)` multiplies a
  2048 × 128 block of tokens by the diagonal weight block `(blk, blk)`, and the 256 output blocks tile the result
  (Proof/KernelBody.lean, Proof/KernelValue.lean). The precondition is not used: the equality holds at every extended
  real.

  The three frames: the two kernel programs' are the generated frame certificates; the reference's is its generated
  run with the result dropped. The ideal pass rewrote nothing, so `preserves` is `True`.
-/
import proofs.«161433_j61572651155930_1_alg».proof.Defs
import proofs.«161433_j61572651155930_1_alg».proof.Proof.Gen.Kernel
import proofs.«161433_j61572651155930_1_alg».proof.Proof.Gen.Kernel.Skeleton
import proofs.«161433_j61572651155930_1_alg».proof.Proof.Gen.Kernel.Launch
import proofs.«161433_j61572651155930_1_alg».proof.Proof.Gen.Kernel.Points
import proofs.«161433_j61572651155930_1_alg».proof.Proof.Gen.Kernel.Frame
import proofs.«161433_j61572651155930_1_alg».proof.Proof.Gen.KernelIdeal
import proofs.«161433_j61572651155930_1_alg».proof.Proof.Gen.KernelIdeal.Skeleton
import proofs.«161433_j61572651155930_1_alg».proof.Proof.Gen.KernelIdeal.Launch
import proofs.«161433_j61572651155930_1_alg».proof.Proof.Gen.KernelIdeal.Points
import proofs.«161433_j61572651155930_1_alg».proof.Proof.Gen.KernelIdeal.Frame
import proofs.«161433_j61572651155930_1_alg».proof.Proof.Gen.ReferenceIdeal
import proofs.«161433_j61572651155930_1_alg».proof.Proof.Gen.Pre_finite_inputs
import proofs.«161433_j61572651155930_1_alg».proof.Proof.Gen.ReferenceIdeal.Run
import proofs.«161433_j61572651155930_1_alg».proof.Proof.Gen.ReferenceIdeal.Read
import proofs.«161433_j61572651155930_1_alg».proof.Proof.BlockSum
import proofs.«161433_j61572651155930_1_alg».proof.Proof.RefValue
import proofs.«161433_j61572651155930_1_alg».proof.Proof.KernelBody
import proofs.«161433_j61572651155930_1_alg».proof.Proof.KernelValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the three arguments both programs end with the result array at `siren` of those
    arguments: the kernel by its run read back, the reference by its run and `RefValue.result_eq`. -/
theorem algebraic : Cert.algebraic_KernelIdeal_ReferenceIdeal := by
  intro m ρ m' ρ' _ hagree
  refine ⟨_, Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v21_eq, Cert.ReferenceIdeal.RefValue.result_eq,
    (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
